-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x64 : Shape := ⟨3, ![16, 8192, 64]⟩
abbrev S16x1024x64 : Shape := ⟨3, ![16, 1024, 64]⟩
abbrev S_ : Shape := ⟨0, ![]⟩

class Facts : Prop where
  bcast_S_S16x8192x64 : S_.BroadcastsInDim S16x8192x64 (![] : Fin 0 → Fin S16x8192x64.rank)
  reducesTo_S16x8192x64_S_d0_1_2 : S16x8192x64.ReducesTo [0, 1, 2] S_
  h_S_ : 0 < S_.numel
  bcast_S_S16x1024x64 : S_.BroadcastsInDim S16x1024x64 (![] : Fin 0 → Fin S16x1024x64.rank)
  reducesTo_S16x1024x64_S_d0_1_2 : S16x1024x64.ReducesTo [0, 1, 2] S_

variable [Facts]

def fn {F : FTy → Type} [FloatOps F] (main_arg0 : FVec F S16x8192x64 .f32) (main_arg1 : FVec F S16x1024x64 .f32) : IVec S_ 1 :=
  let main_v0 : FVec F S16x8192x64 .f32 := Host.absf main_arg0
  let main_cst : FVec F S_ .f32 := constant S_ .f32 0x7F800000#32
  let main_v1 : FVec F S16x8192x64 .f32 := broadcastInDim S16x8192x64 ![] bcast_S_S16x8192x64 main_cst
  let main_v2 : IVec S16x8192x64 1 := cmpf .olt main_v0 main_v1
  let main_c : IVec S_ 1 := constantI S_ 1 1#1
  let main_v3 : IVec S_ 1 := (fun x v => Host.reduce IntOp.andi x v reducesTo_S16x8192x64_S_d0_1_2 h_S_) main_v2 main_c
  let main_v4 : FVec F S16x1024x64 .f32 := Host.absf main_arg1
  let main_cst_0 : FVec F S_ .f32 := constant S_ .f32 0x7F800000#32
  let main_v5 : FVec F S16x1024x64 .f32 := broadcastInDim S16x1024x64 ![] bcast_S_S16x1024x64 main_cst_0
  let main_v6 : IVec S16x1024x64 1 := cmpf .olt main_v4 main_v5
  let main_c_1 : IVec S_ 1 := constantI S_ 1 1#1
  let main_v7 : IVec S_ 1 := (fun x v => Host.reduce IntOp.andi x v reducesTo_S16x1024x64_S_d0_1_2 h_S_) main_v6 main_c_1
  let main_v8 : IVec S_ 1 := andi main_v3 main_v7
  main_v8
-- ==== Kernel.lean ====
abbrev S16x8192x64 : Shape := ⟨3, ![16, 8192, 64]⟩
abbrev S16x1024x64 : Shape := ⟨3, ![16, 1024, 64]⟩
abbrev S16x8192x1024 : Shape := ⟨3, ![16, 8192, 1024]⟩
abbrev S1x1024x64 : Shape := ⟨3, ![1, 1024, 64]⟩
abbrev S1x1024x1024 : Shape := ⟨3, ![1, 1024, 1024]⟩
abbrev S1024x64 : Shape := ⟨2, ![1024, 64]⟩
abbrev S1024 : Shape := ⟨1, ![1024]⟩
abbrev S1024x1 : Shape := ⟨2, ![1024, 1]⟩
abbrev S1x1024 : Shape := ⟨2, ![1, 1024]⟩
abbrev S64x1024 : Shape := ⟨2, ![64, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16x8192x64, .f32⟩
  | .hbm, ⟨1, _⟩ => ⟨S16x1024x64, .f32⟩
  | .hbm, ⟨2, _⟩ => ⟨S16x8192x1024, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x1024, .f32⟩
  | .local _ .vmem, ⟨5, _⟩ => ⟨S1x1024x1024, .f32⟩
  | _, _ => ⟨S16x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  reduces_S1024x64_S1024 : S1024x64.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  transposes_S1024x64_p1_0_S64x1024 : S1024x64.Transposes [1, 0] S64x1024
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S16x8192x64.size a
  hwx0_0 : ∀ i : grid0.Coords, EltTy.bits .f32 = 32 ∨ (Rect.block (s := S16x8192x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S16x1024x64.size a
  hwx0_1 : ∀ i : grid0.Coords, EltTy.bits .f32 = 32 ∨ (Rect.block (s := S16x1024x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S16x8192x1024.size a
  hwx0_2 : ∀ i : grid0.Coords, EltTy.bits .f32 = 32 ∨ (Rect.block (s := S16x8192x1024) S1x1024x1024.size (cc0_transform_2 i) (hinb0_2 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x8192x64 : Shape := ⟨3, ![16, 8192, 64]⟩
abbrev S16x1024x64 : Shape := ⟨3, ![16, 1024, 64]⟩
abbrev S_ : Shape := ⟨0, ![]⟩
abbrev S16x8192 : Shape := ⟨2, ![16, 8192]⟩
abbrev S16x8192x1 : Shape := ⟨3, ![16, 8192, 1]⟩
abbrev S16x1024 : Shape := ⟨2, ![16, 1024]⟩
abbrev S16x1x1024 : Shape := ⟨3, ![16, 1, 1024]⟩
abbrev S16x8192x1024 : Shape := ⟨3, ![16, 8192, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16x8192x64, .f32⟩
  | .hbm, ⟨1, _⟩ => ⟨S16x1024x64, .f32⟩
  | .hbm, ⟨2, _⟩ => ⟨S16x8192x64, .f32⟩
  | .hbm, ⟨3, _⟩ => ⟨S_, .f32⟩
  | .hbm, ⟨4, _⟩ => ⟨S16x8192, .f32⟩
  | .hbm, ⟨5, _⟩ => ⟨S16x8192x1, .f32⟩
  | .hbm, ⟨6, _⟩ => ⟨S16x1024x64, .f32⟩
  | .hbm, ⟨7, _⟩ => ⟨S_, .f32⟩
  | .hbm, ⟨8, _⟩ => ⟨S16x1024, .f32⟩
  | .hbm, ⟨9, _⟩ => ⟨S16x1x1024, .f32⟩
  | .hbm, ⟨10, _⟩ => ⟨S16x8192x1024, .f32⟩
  | .hbm, ⟨11, _⟩ => ⟨S16x8192x1024, .f32⟩
  | .hbm, ⟨12, _⟩ => ⟨S16x8192x1024, .f32⟩
  | .hbm, ⟨13, _⟩ => ⟨S16x8192x1024, .f32⟩
  | .hbm, ⟨14, _⟩ => ⟨S_, .f32⟩
  | .hbm, ⟨15, _⟩ => ⟨S16x8192x1024, .f32⟩
  | .hbm, ⟨16, _⟩ => ⟨S16x8192x1024, .f32⟩
  | .hbm, ⟨17, _⟩ => ⟨S16x8192x1024, .f32⟩
  | .hbm, ⟨18, _⟩ => ⟨S_, .f32⟩
  | .hbm, ⟨19, _⟩ => ⟨S16x8192x1024, .f32⟩
  | .hbm, ⟨20, _⟩ => ⟨S16x8192x1024, .f32⟩
  | .hbm, ⟨21, _⟩ => ⟨S16x8192x1024, .f32⟩
  | _, _ => ⟨S16x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S16x8192x64_S16x8192_d2 : S16x8192x64.ReducesTo [2] S16x8192
  h_S_ : 0 < S_.numel
  bcast_S16x8192_S16x8192x1_0_1 : S16x8192.BroadcastsInDim S16x8192x1 (![0, 1] : Fin 2 → Fin S16x8192x1.rank)
  reducesTo_S16x1024x64_S16x1024_d2 : S16x1024x64.ReducesTo [2] S16x1024
  bcast_S16x1024_S16x1x1024_0_2 : S16x1024.BroadcastsInDim S16x1x1024 (![0, 2] : Fin 2 → Fin S16x1x1024.rank)
  bcast_S16x8192x1_S16x8192x1024_0_1_2 : S16x8192x1.BroadcastsInDim S16x8192x1024 (![0, 1, 2] : Fin 3 → Fin S16x8192x1024.rank)
  bcast_S16x1x1024_S16x8192x1024_0_1_2 : S16x1x1024.BroadcastsInDim S16x8192x1024 (![0, 1, 2] : Fin 3 → Fin S16x8192x1024.rank)
  bcast_S_S16x8192x1024 : S_.BroadcastsInDim S16x8192x1024 (![] : Fin 0 → Fin S16x8192x1024.rank)
  dot_S16x8192x64_S16x1024x64_S16x8192x1024_2_2_1_1_0_0_wf : DotDims.WF S16x8192x64 S16x1024x64 S16x8192x1024 [2] [2] [1] [1] [0] [0]

variable [Facts₀]

def dot_S16x8192x64_S16x1024x64_S16x8192x1024_2_2_1_1_0_0 : DotDims S16x8192x64 S16x1024x64 S16x8192x1024 where
  lhsContracting := [2]
  rhsContracting := [2]
  lhsNonContracting := [1]
  rhsNonContracting := [1]
  lhsBatch := [0]
  rhsBatch := [0]
  wf := dot_S16x8192x64_S16x1024x64_S16x8192x1024_2_2_1_1_0_0_wf

class Facts : Prop extends Facts₀ where

variable [Facts]
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.Pieces.lean ====
/-
  The three ingredients of a block of squared distances, each read at one entry at the ideal values.

  For a block `x` of 1024 rows and a block `y` of 1024 rows, all of length 64, the kernel forms
    * the column of squared lengths of the rows of `x`, spread along the rows of a 1024 × 1024 matrix:
      entry (p, q) is the sum over d of x[p, d]²;
    * the row of squared lengths of the rows of `y`, turned from a column into a row and spread down the
      columns: entry (p, q) is the sum over d of y[q, d]²;
    * the product of `x` with the transpose of `y` into a zero accumulator, the narrowing of the operands
      being the identity on extended reals: entry (p, q) is the sum over d of x[p, d] · y[q, d].
  Two small facts about re-laid vectors come first: a vector viewed as a one-column matrix, and a one-column
  matrix spread along rows.
-/
import Idealize.ShloMosaic.Lib.ValueIdx
import Idealize.ShloMosaic.Lib.ValueLayout
import Idealize.ShloMosaic.Lib.Pipeline.Value
import Idealize.ShloMosaic.PureOps.Ideal.Laws
import proofs.«173866_j71408126264020_1_alg».proof.Proof.LibDot

noncomputable section

open scoped BigOperators

namespace Cert.Dist

open Idealize.ShloMosaic Idealize.ShloMosaic.ValueIdx

section Layout
variable {α : Type}

/-- A vector of length `a` viewed as an `a × 1` matrix reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` matrix spread along rows to `a × b` reads, at `(p, c)`, its one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum along a row of the squares: the reduction over the second axis of `x ⊙ x`, from the zero word, read at row
    `p`, is the sum over `d` of `x[p, d] · x[p, d]`. -/
theorem rowSq_apply (x : FVec Ideal ⟨2, ![1024, 64]⟩ .f32) (h : Shape.Reduces ⟨2, ![1024, 64]⟩ [1] ⟨1, ![1024]⟩)
    (hφ : FKind.Formats .f32) (hacc : (0x00000000#32 : BitVec FTy.f32.bits) = FKind.add.neutral .f32 hφ) (p : Fin 1024) :
    multiReduction .add [1] ⟨1, ![1024]⟩ (mulf x x) 0x00000000#32 h hφ hacc (ix1 p)
      = ∑ d : Fin 64, x (ix2 p d) * x (ix2 p d) :=
  (Ideal.multiReduction_add_single (mulf x x) _ h hφ hacc (ix1 p)).trans
    (Finset.sum_congr rfl fun d _ => by
      have e : h.lift (ix1 p) d = ix2 p d := funext fun a => Fin.ext (by
        match a with
        | ⟨0, _⟩ => rfl
        | ⟨1, _⟩ => rfl)
      rw [e]; rfl)

/-- The column of squared row lengths of `x`, spread along rows: entry `(p, q)` is the squared length of row `p`. -/
theorem sqLenCol_apply (x : FVec Ideal ⟨2, ![1024, 64]⟩ .f32) (h : Shape.Reduces ⟨2, ![1024, 64]⟩ [1] ⟨1, ![1024]⟩)
    (hφ : FKind.Formats .f32) (hacc : (0x00000000#32 : BitVec FTy.f32.bits) = FKind.add.neutral .f32 hφ)
    (hc : (⟨1, ![1024]⟩ : Shape).ShapeCasts ⟨2, ![1024, 1]⟩) (hb : (⟨2, ![1024, 1]⟩ : Shape).Broadcasts ⟨2, ![1024, 1024]⟩)
    (p q : Fin 1024) :
    broadcastTo ⟨2, ![1024, 1024]⟩
        (shapeCast ⟨2, ![1024, 1]⟩ (multiReduction .add [1] ⟨1, ![1024]⟩ (mulf x x) 0x00000000#32 h hφ hacc) hc) hb (ix2 p q)
      = ∑ d : Fin 64, x (ix2 p d) * x (ix2 p d) :=
  (broadcastTo_a1_ab_apply _ hb p q).trans ((shapeCast_a_a1_apply _ hc p 0).trans (rowSq_apply x h hφ hacc p))

/-- The row of squared row lengths of `y` — the column turned by a transpose — spread down columns: entry `(p, q)` is the
    squared length of row `q`. -/
theorem sqLenRow_apply (y : FVec Ideal ⟨2, ![1024, 64]⟩ .f32) (h : Shape.Reduces ⟨2, ![1024, 64]⟩ [1] ⟨1, ![1024]⟩)
    (hφ : FKind.Formats .f32) (hacc : (0x00000000#32 : BitVec FTy.f32.bits) = FKind.add.neutral .f32 hφ)
    (hc : (⟨1, ![1024]⟩ : Shape).ShapeCasts ⟨2, ![1024, 1]⟩) (ht : (⟨2, ![1024, 1]⟩ : Shape).Transposes [1, 0] ⟨2, ![1, 1024]⟩)
    (hb : (⟨2, ![1, 1024]⟩ : Shape).Broadcasts ⟨2, ![1024, 1024]⟩) (p q : Fin 1024) :
    broadcastTo ⟨2, ![1024, 1024]⟩
        (transpose ⟨2, ![1, 1024]⟩ [1, 0]
          (shapeCast ⟨2, ![1024, 1]⟩ (multiReduction .add [1] ⟨1, ![1024]⟩ (mulf y y) 0x00000000#32 h hφ hacc) hc) ht) hb (ix2 p q)
      = ∑ d : Fin 64, y (ix2 q d) * y (ix2 q d) :=
  (broadcastTo_1b_ab_apply _ hb p q).trans
    ((transpose_ix2_apply _ ht (0 : Fin 1) q).trans ((shapeCast_a_a1_apply _ hc q 0).trans (rowSq_apply y h hφ hacc q)))

/-- The product of `x` with the transpose of `y`, both narrowed (the identity at the ideal values), into the zero
    accumulator: entry `(p, q)` is the inner product of row `p` of `x` with row `q` of `y`. -/
theorem inner_apply (x y : FVec Ideal ⟨2, ![1024, 64]⟩ .f32)
    (D : DotDims ⟨2, ![1024, 64]⟩ ⟨2, ![64, 1024]⟩ ⟨2, ![1024, 1024]⟩)
    (hlc : D.lhsContracting = [1]) (hrc : D.rhsContracting = [0]) (hln : D.lhsNonContracting = [0])
    (hrn : D.rhsNonContracting = [1]) (hlb : D.lhsBatch = []) (hrb : D.rhsBatch = [])
    (hlt : FTy.bits .bf16 < FTy.bits .f32) (ht : (⟨2, ![1024, 64]⟩ : Shape).Transposes [1, 0] ⟨2, ![64, 1024]⟩)
    (p q : Fin 1024) :
    matmul (F := Ideal) D none (truncf .bf16 x hlt) (transpose ⟨2, ![64, 1024]⟩ [1, 0] (truncf .bf16 y hlt) ht)
        (constant ⟨2, ![1024, 1024]⟩ .f32 0x00000000#32) (ix2 p q)
      = ∑ d : Fin 64, x (ix2 p d) * y (ix2 q d) :=
  (Cert.LibDot.matmul_10_zero_apply D hlc hrc hln hrn hlb hrb none _ _ p q).trans
    (Finset.sum_congr rfl fun d _ => by
      rw [transpose_ix2_apply _ ht d q]; rfl)

end Cert.Dist

end
-- ==== Proof.Spec.lean ====
/-
  The specification: Euclidean distances between rows, per group, in the expanded form both programs compute.

  For `X` of shape [16, 8192, 64] and `C` of shape [16, 1024, 64], the result at (g, b, k) is
      √ max( (‖X[g, b, ·]‖² + ‖C[g, k, ·]‖²) − 2 · ⟨X[g, b, ·], C[g, k, ·]⟩ , 0 ),
  the squared lengths and the inner product being sums over the 64 coordinates, on the extended reals. The factor 2 is
  kept as the value of its binary word, the same word in both programs.
-/
import Idealize.ShloMosaic.Lib.ValueIdx
import Idealize.ShloMosaic.PureOps.Ideal.Laws

noncomputable section

open scoped BigOperators

namespace Cert.Dist

open Idealize.ShloMosaic Idealize.ShloMosaic.ValueIdx

/-- The squared length of row `(g, a)` of a stack of matrices with rows of length 64. -/
def sqLen {n : Nat} (A : FVec Ideal ⟨3, ![16, n, 64]⟩ .f32) (g : Fin 16) (a : Fin n) : EReal :=
  ∑ d : Fin 64, A (ix3 g a d) * A (ix3 g a d)

/-- The inner product of row `(g, b)` of `X` with row `(g, k)` of `C`. -/
def inner (X : FVec Ideal ⟨3, ![16, 8192, 64]⟩ .f32) (C : FVec Ideal ⟨3, ![16, 1024, 64]⟩ .f32)
    (g : Fin 16) (b : Fin 8192) (k : Fin 1024) : EReal :=
  ∑ d : Fin 64, X (ix3 g b d) * C (ix3 g k d)

/-- The distance from row `(g, b)` of `X` to row `(g, k)` of `C`, in the expanded form. -/
def distAt (X : FVec Ideal ⟨3, ![16, 8192, 64]⟩ .f32) (C : FVec Ideal ⟨3, ![16, 1024, 64]⟩ .f32)
    (g : Fin 16) (b : Fin 8192) (k : Fin 1024) : EReal :=
  Ideal.sqrt (max ((sqLen X g b + sqLen C g k) - Ideal.ofBits .f32 0x40000000#32 * inner X C g b k) 0)

/-- All distances, as one array of shape [16, 8192, 1024]. -/
def dist (X : FVec Ideal ⟨3, ![16, 8192, 64]⟩ .f32) (C : FVec Ideal ⟨3, ![16, 1024, 64]⟩ .f32) :
    FVec Ideal ⟨3, ![16, 8192, 1024]⟩ .f32 :=
  fun i => distAt X C (i 0) (i 1) (i 2)

theorem dist_ix3 (X : FVec Ideal ⟨3, ![16, 8192, 64]⟩ .f32) (C : FVec Ideal ⟨3, ![16, 1024, 64]⟩ .f32)
    (g : Fin 16) (b : Fin 8192) (k : Fin 1024) : dist X C (ix3 g b k) = distAt X C g b k := rfl

end Cert.Dist

end
-- ==== Proof.Payload.lean ====
/-
  The value the kernel body stores, read at one entry.

  The body loads a block `x0` of 1024 rows of one group of the first argument and the block `x1` of all 1024 rows of
  that group of the second, and stores ONE 1 × 1024 × 1024 value. Its entry (·, p, q) is the expanded distance between
  row `p` of `x0` and row `q` of `x1`: the column of squared lengths plus the row of squared lengths, minus twice the
  matrix product, clamped at zero, under the square root. So if row `p` of `x0` is row `(g, b)` of `X` and row `q` of
  `x1` is row `(g, k)` of `C`, the entry is the specification's distance at `(g, b, k)`.
-/
import proofs.«173866_j71408126264020_1_alg».proof.Proof.Gen.KernelIdeal.Skeleton
import proofs.«173866_j71408126264020_1_alg».proof.Proof.Pieces
import proofs.«173866_j71408126264020_1_alg».proof.Proof.Spec

noncomputable section

open scoped BigOperators

namespace Cert.Dist

open Cert.KernelIdeal Cert.KernelIdeal.Gen Idealize.ShloMosaic Idealize.ShloMosaic.ValueIdx

/-- Entry `(u, p, q)` of the stored value is the distance at `(g, b, k)` whenever row `p` of the first block is row
    `(g, b)` of `X` and row `q` of the second block is row `(g, k)` of `C`. -/
theorem pay_at (X : FVec Ideal ⟨3, ![16, 8192, 64]⟩ .f32) (C : FVec Ideal ⟨3, ![16, 1024, 64]⟩ .f32)
    (x0 x1 : Vec Ideal S1x1024x64 .f32) (u : Fin 1) (p q : Fin 1024) (g : Fin 16) (b : Fin 8192) (k : Fin 1024)
    (hx : ∀ d : Fin 64, x0 (ix3 (0 : Fin 1) p d) = X (ix3 g b d))
    (hc : ∀ d : Fin 64, x1 (ix3 (0 : Fin 1) q d) = C (ix3 g k d)) :
    k0_pay1 (F := Ideal) x0 x1 (ix3 u p q) = distAt X C g b k := by
  unfold k0_pay1
  dsimp only
  refine (shapeCast_ab_1ab_apply _ _ u p q).trans ?_
  unfold distAt sqLen inner
  refine congrArg Ideal.sqrt (congrArg₂ max (congrArg₂ (· - ·) (congrArg₂ (· + ·) ?_ ?_)
    (congrArg (Ideal.ofBits .f32 0x40000000#32 * ·) ?_)) Ideal.ofBits_zero_f32)
  · refine (sqLenCol_apply _ _ _ _ _ _ p q).trans (Finset.sum_congr rfl fun d _ => ?_)
    rw [shapeCast_1ab_ab_apply, hx]
  · refine (sqLenRow_apply _ _ _ _ _ _ _ p q).trans (Finset.sum_congr rfl fun d _ => ?_)
    rw [shapeCast_1ab_ab_apply, hc]
  · refine (inner_apply _ _ _ rfl rfl rfl rfl rfl rfl _ _ p q).trans (Finset.sum_congr rfl fun d _ => ?_)
    rw [shapeCast_1ab_ab_apply, shapeCast_1ab_ab_apply, hx, hc]

end Cert.Dist

end
-- ==== Proof.KernelValue.lean ====
/-
  From the kernel's blocks to its result array.

  The grid has 16 × 8 points. At point (g, s) the output window's block is rows s·1024 … s·1024 + 1023 of group g (all
  1024 columns), the first input's block is the same rows of group g of the first argument, and the second input's block
  is the whole of group g of the second argument. So what a point writes back is exactly its block of the array of
  distances; the 128 blocks tile the result array (row r of group g lies in the block of point (g, r / 1024)); hence the
  array after the run is the array of distances of the two arguments.
-/
import proofs.«173866_j71408126264020_1_alg».proof.Proof.Gen.KernelIdeal.Value
import proofs.«173866_j71408126264020_1_alg».proof.Proof.Payload

noncomputable section

namespace Cert.Dist

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem offs_zero : (![0, 0, 0] : Fin 3 → Nat) = fun _ => 0 := funext fun a => by fin_cases a <;> rfl

/-- The three index maps over the grid: the first input's block moves with the output's on the group and row axes,
    the second input's on the group axis only, and every other block index is zero. -/
theorem block_indices : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (2 : Fin 3) = 0 :=
  (by decide +kernel : ∀ t : Fin grid0.N, _)

/-- Every (group, row-block) pair is some point's output block. -/
theorem block_onto : ∀ (q0 : Fin 16) (q1 : Fin 8), ∃ t : Fin cfg0.N, win0_2.index t = ![q0.val, q1.val, 0] :=
  (by decide +kernel : ∀ (q0 : Fin 16) (q1 : Fin 8), ∃ t : Fin grid0.N, win0_2.index t = ![q0.val, q1.val, 0])

/-- What point `t` writes back is block `t` of the array of distances of the two arguments. -/
theorem flushed_eq (c : Dev nD) (t : Fin cfg0.N) :
    (dats m 0 c).flushed 2 t
      = ((cfg0.win 2).blk t).view.read (Elt Ideal) (dist (V m c main_arg0) (V m c main_arg1)) := by
  rw [Cert.KernelIdeal.Value.flushed2]
  unfold out0_2
  rw [View.canon_unit_zero offs_zero]
  simp only [View.ld_unit_zero (S := S1x1024x64) offs_zero]
  obtain ⟨e00, e01, e02, e10, e11, e12, e22⟩ := block_indices t
  refine funext fun (j : S1x1024x1024.Idx) => ?_
  obtain ⟨u, p, q, rfl⟩ : ∃ (u : Fin 1) (p q : Fin 1024), j = ix3 u p q := ⟨j 0, j 1, j 2, eq_ix3 j⟩
  have hu : u.val = 0 := by omega
  show k0_pay1 (iblk m c 0 t) (iblk m c 1 t) (ix3 u p q)
    = dist (V m c main_arg0) (V m c main_arg1) (((cfg0.win 2).blk t).view.emb (ix3 u p q))
  refine pay_at (V m c main_arg0) (V m c main_arg1) (iblk m c 0 t) (iblk m c 1 t) u p q
    ((((cfg0.win 2).blk t).view.emb (ix3 u p q)) 0) ((((cfg0.win 2).blk t).view.emb (ix3 u p q)) 1)
    ((((cfg0.win 2).blk t).view.emb (ix3 u p q)) 2) (fun d => ?_) (fun d => ?_)
  · show V m c main_arg0 (((cfg0.win 0).blk t).view.emb (ix3 (0 : Fin 1) p d)) = V m c main_arg0 _
    refine congrArg (V m c main_arg0) (funext fun a => Fin.ext ?_)
    match a with
    | ⟨0, _⟩ => show win0_0.index t (0 : Fin 3) * 1 + 1 * 0 = win0_2.index t (0 : Fin 3) * 1 + 1 * u.val; omega
    | ⟨1, _⟩ => show win0_0.index t (1 : Fin 3) * 1024 + 1 * p.val = win0_2.index t (1 : Fin 3) * 1024 + 1 * p.val; omega
    | ⟨2, _⟩ => show win0_0.index t (2 : Fin 3) * 64 + 1 * d.val = d.val; omega
  · show V m c main_arg1 (((cfg0.win 1).blk t).view.emb (ix3 (0 : Fin 1) q d)) = V m c main_arg1 _
    refine congrArg (V m c main_arg1) (funext fun a => Fin.ext ?_)
    match a with
    | ⟨0, _⟩ => show win0_1.index t (0 : Fin 3) * 1 + 1 * 0 = win0_2.index t (0 : Fin 3) * 1 + 1 * u.val; omega
    | ⟨1, _⟩ => show win0_1.index t (1 : Fin 3) * 1024 + 1 * q.val = win0_2.index t (2 : Fin 3) * 1024 + 1 * q.val; omega
    | ⟨2, _⟩ => show win0_1.index t (2 : Fin 3) * 64 + 1 * d.val = d.val; omega

/-- An index of the result array is in point `t`'s block iff each coordinate is in the block's range on its axis. -/
theorem mem_block (t : Fin cfg0.N) (i : S16x8192x1024.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v0).slice (win0_2.rect t)).set ↔ _
  rw [View.set_slice_whole, Rect.mem_set_unit]
  exact Iff.rfl

/-- The blocks tile the result array: row `r` of group `g` is in the block of the point with indices `(g, r / 1024, 0)`. -/
theorem covered (i : S16x8192x1024.Idx) :
    ∃ t : Fin cfg0.N, (cfg0.win 2).flush t = true ∧ i ∈ ((cfg0.win 2).blk t).view.set := by
  have hi0 : (i 0).val < 16 := (i 0).isLt
  have hi1 : (i 1).val < 8192 := (i 1).isLt
  have hi2 : (i 2).val < 1024 := (i 2).isLt
  obtain ⟨t, ht⟩ := block_onto ⟨(i 0).val, hi0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- The result array after the run is the array of distances of the two arguments as launched. -/
theorem final (c : Dev nD) :
    (dats m 0 c).arrAt 2 cfg0.N
      = dist (m ((c : Thread nD τ).loc main_arg0)) (m ((c : Thread nD τ).loc main_arg1)) :=
  (dats m 0 c).arrAt_eq_of_cover 2 _ (fun t _ => flushed_eq m c t) covered

/-- The kernel's run: it terminates with the result array at the distances and the arguments unchanged. -/
theorem kernel_run : θ_run defs (onTc (τ := τ) (main (F := Ideal))) ⟨m, fun _ => 0, ρ⟩ fun r => ∀ c : Dev nD,
      r.2.mem ((c : Thread nD τ).loc main_v0)
        = dist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.Dist

end
-- ==== Proof.RefValue.lean ====
/-
  The reference computes the specification.

  Its last stage, read entry by entry through its twenty operations, is at (g, b, k): the square root of the maximum of
  zero and ((0 + Σ_d X[g,b,d]²) spread over k, plus (0 + Σ_d C[g,k,d]²) spread over b) minus 2 · Σ_d X[g,b,d]·C[g,k,d]:
  the host's sums start from the zero word and its batched product contracts the last axis of both arguments. Each
  composed index map lands on the row the specification names, and adding the zero changes nothing.
-/
import proofs.«173866_j71408126264020_1_alg».proof.Proof.Gen.ReferenceIdeal.Read
import proofs.«173866_j71408126264020_1_alg».proof.Proof.Spec

noncomputable section

open scoped BigOperators

namespace Cert.Dist

open Cert.ReferenceIdeal Cert.ReferenceIdeal.Gen Cert.ReferenceIdeal.Read Idealize.ShloMosaic Idealize.ShloMosaic.ValueIdx

/-- The reference's result, as a function of its two arguments, is the array of distances. -/
theorem ref_eq (x0 : (⟨S16x8192x64, .f32⟩ : BufTy).Contents (Elt Ideal)) (x1 : (⟨S16x1024x64, .f32⟩ : BufTy).Contents (Elt Ideal)) :
    val_main_v15 (F := Ideal) x0 x1 = dist x0 x1 := by
  funext i
  obtain ⟨g, b, k, rfl⟩ : ∃ (g : Fin 16) (b : Fin 8192) (k : Fin 1024), i = ix3 g b k := ⟨i 0, i 1, i 2, eq_ix3 i⟩
  -- the row of `X` the first squared length sums over
  have ex : ∀ d : Fin 64, idx_main_v1 (idx_main_v2 (idx_main_v7 (ix3 g b k))) d = ix3 g b d := fun d =>
    funext fun a => Fin.ext (by match a with | ⟨0, _⟩ => rfl | ⟨1, _⟩ => rfl | ⟨2, _⟩ => rfl)
  -- the row of `C` the second sums over
  have ec : ∀ d : Fin 64, idx_main_v4 (idx_main_v5 (idx_main_v8 (ix3 g b k))) d = ix3 g k d := fun d =>
    funext fun a => Fin.ext (by match a with | ⟨0, _⟩ => rfl | ⟨1, _⟩ => rfl | ⟨2, _⟩ => rfl)
  -- the two rows the product pairs
  have el : ∀ d : Fin 64, lidx_main_v6 (ix3 g b k) d = ix3 g b d := fun d =>
    funext fun a => Fin.ext (by match a with | ⟨0, _⟩ => rfl | ⟨1, _⟩ => rfl | ⟨2, _⟩ => rfl)
  have er : ∀ d : Fin 64, ridx_main_v6 (ix3 g b k) d = ix3 g k d := fun d =>
    funext fun a => Fin.ext (by match a with | ⟨0, _⟩ => rfl | ⟨1, _⟩ => rfl | ⟨2, _⟩ => rfl)
  rw [dist_ix3]
  simp only [val_main_v15_apply, val_main_v14_apply, val_main_v13_apply, val_main_v12_apply, val_main_v11_apply,
    val_main_v10_apply, val_main_v9_apply, val_main_v8_apply, val_main_v7_apply, val_main_v6_apply, val_main_v5_apply,
    val_main_v4_apply, val_main_v3_apply, val_main_v2_apply, val_main_v1_apply, val_main_v0_apply,
    val_main_cst_apply, val_main_cst_0_apply, val_main_cst_1_apply, val_main_cst_2_apply, ex, ec, el, er,
    Ideal.hostUnary_sqrt_def, Ideal.maximumf_def, Ideal.subf_def, Ideal.addf_def, Ideal.mulf_def, Ideal.ofBits_def,
    Ideal.ofBits_zero_f32, zero_add, distAt, sqLen, inner]

end Cert.Dist

end
-- ==== Proof.lean ====
/-
  Euclidean distances from 8192 points to 1024 centroids in dimension 64, for each of 16 groups: the tiled kernel against
  the whole-array reference, as extended reals.

  Both programs use the expansion ‖x − c‖ = √ max(‖x‖² + ‖c‖² − 2⟨x, c⟩, 0). The reference forms the two arrays of squared
  lengths by sums over the last axis, spreads them over the result's shape, takes one batched product of the two arguments
  contracting the last axis, and combines. The kernel walks a 16 × 8 grid; at a point it holds 1024 rows of one group of
  the points and all 1024 centroids of that group, forms the same squared lengths as a column and (after a transpose) a
  row, multiplies the rows by the transposed centroids on the matrix unit after narrowing both to a shorter format, and
  combines in the same order with the same binary words for 2 and 0.

  At the ideal values narrowing is the identity, a lane sum and a host sum of the same terms are the same finite sum,
  and the matrix unit's product into a zero accumulator is the host's contraction; the zero the host's sums start from
  adds nothing. So entry (g, b, k) of either result is one and the same expression of the arguments (`Dist.distAt`), and
  no property of the inputs is used. The kernel's 128 blocks are restrictions of that one array and tile it.

  The frames of the two kernel programs and the runs are the generated ones; the idealization rewrote nothing, so there
  is nothing to preserve.
-/
import proofs.«173866_j71408126264020_1_alg».proof.Defs
import proofs.«173866_j71408126264020_1_alg».proof.Proof.Gen.Kernel
import proofs.«173866_j71408126264020_1_alg».proof.Proof.Gen.Kernel.Skeleton
import proofs.«173866_j71408126264020_1_alg».proof.Proof.Gen.Kernel.Launch
import proofs.«173866_j71408126264020_1_alg».proof.Proof.Gen.Kernel.Points
import proofs.«173866_j71408126264020_1_alg».proof.Proof.Gen.Kernel.Frame
import proofs.«173866_j71408126264020_1_alg».proof.Proof.Gen.KernelIdeal
import proofs.«173866_j71408126264020_1_alg».proof.Proof.Gen.KernelIdeal.Skeleton
import proofs.«173866_j71408126264020_1_alg».proof.Proof.Gen.KernelIdeal.Launch
import proofs.«173866_j71408126264020_1_alg».proof.Proof.Gen.KernelIdeal.Points
import proofs.«173866_j71408126264020_1_alg».proof.Proof.Gen.KernelIdeal.Frame
import proofs.«173866_j71408126264020_1_alg».proof.Proof.Gen.ReferenceIdeal
import proofs.«173866_j71408126264020_1_alg».proof.Proof.Gen.Pre_finite_inputs
import proofs.«173866_j71408126264020_1_alg».proof.Proof.Gen.KernelIdeal.Value
import proofs.«173866_j71408126264020_1_alg».proof.Proof.Gen.ReferenceIdeal.Run
import proofs.«173866_j71408126264020_1_alg».proof.Proof.Gen.ReferenceIdeal.Read
import proofs.«173866_j71408126264020_1_alg».proof.Proof.KernelValue
import proofs.«173866_j71408126264020_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From arguments that agree, the kernel's result array and the reference's are both the array of distances of those
    arguments. -/
theorem algebraic : Cert.algebraic_KernelIdeal_ReferenceIdeal := by
  intro m ρ m' ρ' _ hagree
  refine ⟨_, Cert.Dist.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.Dist.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
